-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S8192x2048 : Shape := ⟨2, ![8192, 2048]⟩
abbrev S8192 : Shape := ⟨1, ![8192]⟩
abbrev S2048x8192 : Shape := ⟨2, ![2048, 8192]⟩
abbrev S2048 : Shape := ⟨1, ![2048]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S8192 : S_.BroadcastsInDim S8192 (![] : Fin 0 → Fin S8192.rank)
  reducesTo_S8192_S_d0 : S8192.ReducesTo [0] S_
  bcast_S_S2048x8192 : S_.BroadcastsInDim S2048x8192 (![] : Fin 0 → Fin S2048x8192.rank)
  reducesTo_S2048x8192_S_d0_1 : S2048x8192.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S2048x8192 1) : IVec S_ 1 :=
  let main_c_5 : IVec S_ 1 := constantI S_ 1 1#1
  let main_v17 : IVec S_ 1 := (fun x v => Host.reduce IntOp.andi x v reducesTo_S2048x8192_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S4x2048x2048 .f32) (main_arg1 : FVec F S8192x2048 .f32) (main_arg2 : FVec F S8192 .f32) (main_arg3 : FVec F S2048x8192 .f32) (main_arg4 : FVec F S2048 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S2048x8192 .f32 := Host.absf main_arg3
  let main_cst_4 : FVec F S_ .f32 := constant S_ .f32 0x7F800000#32
  let main_v15 : FVec F S2048x8192 .f32 := broadcastInDim S2048x8192 ![] bcast_S_S2048x8192 main_cst_4
  let main_v16 : IVec S2048x8192 1 := cmpf .olt main_v14 main_v15
  fn_part1 (F := F) main_arg4 main_v13 main_v16
-- ==== Kernel.lean ====
abbrev S4x2048x2048 : Shape := ⟨3, ![4, 2048, 2048]⟩
abbrev S8192x2048 : Shape := ⟨2, ![8192, 2048]⟩
abbrev S8192 : Shape := ⟨1, ![8192]⟩
abbrev S2048x8192 : Shape := ⟨2, ![2048, 8192]⟩
abbrev S2048 : Shape := ⟨1, ![2048]⟩
abbrev S1x8192 : Shape := ⟨2, ![1, 8192]⟩
abbrev S1x2048 : Shape := ⟨2, ![1, 2048]⟩
abbrev S512x2048 : Shape := ⟨2, ![512, 2048]⟩
abbrev S1024x2048 : Shape := ⟨2, ![1024, 2048]⟩
abbrev S1x1024 : Shape := ⟨2, ![1, 1024]⟩
abbrev S2048x1024 : Shape := ⟨2, ![2048, 1024]⟩
abbrev S512x1024 : Shape := ⟨2, ![512, 1024]⟩

abbrev nBuf : Space → Nat
  | .hbm => 13
  | .vmem => 12
  | .smem => 0
  | _ => 0

abbrev bufTy : (tb : Table) → Fin (tcTables nBuf tb) → BufTy
  | .hbm, ⟨0, _⟩ => ⟨S4x2048x2048, .f32⟩
  | .hbm, ⟨1, _⟩ => ⟨S8192x2048, .f32⟩
  | .hbm, ⟨2, _⟩ => ⟨S8192, .f32⟩
  | .hbm, ⟨3, _⟩ => ⟨S2048x8192, .f32⟩
  | .hbm, ⟨4, _⟩ => ⟨S2048, .f32⟩
  | .hbm, ⟨5, _⟩ => ⟨S8192x2048, .f32⟩
  | .hbm, ⟨6, _⟩ => ⟨S8192x2048, .bf16⟩
  | .hbm, ⟨7, _⟩ => ⟨S8192x2048, .bf16⟩
  | .hbm, ⟨8, _⟩ => ⟨S2048x8192, .bf16⟩
  | .hbm, ⟨9, _⟩ => ⟨S1x8192, .f32⟩
  | .hbm, ⟨10, _⟩ => ⟨S1x2048, .f32⟩
  | .hbm, ⟨11, _⟩ => ⟨S8192x2048, .f32⟩
  | .hbm, ⟨12, _⟩ => ⟨S4x2048x2048, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x1024, .f32⟩
  | .local _ .vmem, ⟨5, _⟩ => ⟨S1x1024, .f32⟩
  | .local _ .vmem, ⟨6, _⟩ => ⟨S2048x1024, .bf16⟩
  | .local _ .vmem, ⟨7, _⟩ => ⟨S2048x1024, .bf16⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v24 : BitVec 1 := Scalar.cmpi .eq arg1 c7_i32
  let v25 : BitVec 32 := Scalar.extui v24
  let c0_i32_14 : BitVec 32 := 0#32
  let v26 : BitVec 1 := Scalar.cmpi .ne v25 c0_i32_14
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S4x2048x2048_S8192x2048 : S4x2048x2048.ShapeCasts S8192x2048
  bitsLt_bf16_f32 : FTy.bits .bf16 < FTy.bits .f32
  shapeCasts_S8192_S1x8192 : S8192.ShapeCasts S1x8192
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S8192x2048_S4x2048x2048 : S8192x2048.ShapeCasts S4x2048x2048
  dot_S512x2048_S1024x2048_S512x1024_1_1_0_0_n_n_wf : DotDims.WF S512x2048 S1024x2048 S512x1024 [1] [1] [0] [0] [] []
  dot_S512x1024_S2048x1024_S512x2048_1_1_0_0_n_n_wf : DotDims.WF S512x1024 S2048x1024 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .bf16 = 32 ∨ (Rect.block (s := S8192x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S8192x2048.size a
  hwx0_1 : ∀ i : grid0.Coords, EltTy.bits .bf16 = 32 ∨ (Rect.block (s := S8192x2048) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S2048x8192.size a
  hwx0_3 : ∀ i : grid0.Coords, EltTy.bits .bf16 = 32 ∨ (Rect.block (s := S2048x8192) S2048x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S8192x2048.size a
  hwx0_5 : ∀ i : grid0.Coords, EltTy.bits .f32 = 32 ∨ (Rect.block (s := S8192x2048) S512x2048.size (cc0_transform_5 i) (hinb0_5 i)).WholeWords (EltTy.packing .f32)

variable [Facts₀]

def dot_S512x2048_S1024x2048_S512x1024_1_1_0_0_n_n : DotDims S512x2048 S1024x2048 S512x1024 where
  lhsContracting := [1]
  rhsContracting := [1]
  lhsNonContracting := [0]
  rhsNonContracting := [0]
  lhsBatch := []
  rhsBatch := []
  wf := dot_S512x2048_S1024x2048_S512x1024_1_1_0_0_n_n_wf
def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf

abbrev win0_0 : Pipeline.Window sig grid0 :=
  Pipeline.Window.ofSpec (Memref.whole main_v1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x2048x2048 : Shape := ⟨3, ![4, 2048, 2048]⟩
abbrev S8192x2048 : Shape := ⟨2, ![8192, 2048]⟩
abbrev S8192 : Shape := ⟨1, ![8192]⟩
abbrev S2048x8192 : Shape := ⟨2, ![2048, 8192]⟩
abbrev S2048 : Shape := ⟨1, ![2048]⟩
abbrev S4x2048x8192 : Shape := ⟨3, ![4, 2048, 8192]⟩
abbrev S1x1x8192 : Shape := ⟨3, ![1, 1, 8192]⟩
abbrev S_ : Shape := ⟨0, ![]⟩
abbrev S1x1x2048 : Shape := ⟨3, ![1, 1, 2048]⟩

abbrev nBuf : Space → Nat
  | .hbm => 17
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S8192x2048, .f32⟩
  | .hbm, ⟨2, _⟩ => ⟨S8192, .f32⟩
  | .hbm, ⟨3, _⟩ => ⟨S2048x8192, .f32⟩
  | .hbm, ⟨4, _⟩ => ⟨S2048, .f32⟩
  | .hbm, ⟨5, _⟩ => ⟨S4x2048x8192, .f32⟩
  | .hbm, ⟨6, _⟩ => ⟨S1x1x8192, .f32⟩
  | .hbm, ⟨7, _⟩ => ⟨S4x2048x8192, .f32⟩
  | .hbm, ⟨8, _⟩ => ⟨S4x2048x8192, .f32⟩
  | .hbm, ⟨9, _⟩ => ⟨S_, .f32⟩
  | .hbm, ⟨10, _⟩ => ⟨S4x2048x8192, .f32⟩
  | .hbm, ⟨11, _⟩ => ⟨S4x2048x8192, .f32⟩
  | .hbm, ⟨12, _⟩ => ⟨S4x2048x8192, .f32⟩
  | .hbm, ⟨13, _⟩ => ⟨S4x2048x2048, .f32⟩
  | .hbm, ⟨14, _⟩ => ⟨S1x1x2048, .f32⟩
  | .hbm, ⟨15, _⟩ => ⟨S4x2048x2048, .f32⟩
  | .hbm, ⟨16, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]

class Facts₀ : Prop where
  bcast_S8192_S1x1x8192_2 : S8192.BroadcastsInDim S1x1x8192 (![2] : Fin 1 → Fin S1x1x8192.rank)
  bcast_S1x1x8192_S4x2048x8192_0_1_2 : S1x1x8192.BroadcastsInDim S4x2048x8192 (![0, 1, 2] : Fin 3 → Fin S4x2048x8192.rank)
  bcast_S_S4x2048x8192 : S_.BroadcastsInDim S4x2048x8192 (![] : Fin 0 → Fin S4x2048x8192.rank)
  bcast_S2048_S1x1x2048_2 : S2048.BroadcastsInDim S1x1x2048 (![2] : Fin 1 → Fin S1x1x2048.rank)
  bcast_S1x1x2048_S4x2048x2048_0_1_2 : S1x1x2048.BroadcastsInDim S4x2048x2048 (![0, 1, 2] : Fin 3 → Fin S4x2048x2048.rank)
  dot_S4x2048x2048_S8192x2048_S4x2048x8192_2_1_01_0_n_n_wf : DotDims.WF S4x2048x2048 S8192x2048 S4x2048x8192 [2] [1] [0, 1] [0] [] []
  dot_S4x2048x8192_S2048x8192_S4x2048x2048_2_1_01_0_n_n_wf : DotDims.WF S4x2048x8192 S2048x8192 S4x2048x2048 [2] [1] [0, 1] [0] [] []

variable [Facts₀]

def dot_S4x2048x2048_S8192x2048_S4x2048x8192_2_1_01_0_n_n : DotDims S4x2048x2048 S8192x2048 S4x2048x8192 where
  lhsContracting := [2]
  rhsContracting := [1]
  lhsNonContracting := [0, 1]
  rhsNonContracting := [0]
  lhsBatch := []
  rhsBatch := []
  wf := dot_S4x2048x2048_S8192x2048_S4x2048x8192_2_1_01_0_n_n_wf
def dot_S4x2048x8192_S2048x8192_S4x2048x2048_2_1_01_0_n_n : DotDims S4x2048x8192 S2048x8192 S4x2048x2048 where
  lhsContracting := [2]
  rhsContracting := [1]
  lhsNonContracting := [0, 1]
  rhsNonContracting := [0]
  lhsBatch := []
  rhsBatch := []
  wf := dot_S4x2048x8192_S2048x8192_S4x2048x2048_2_1_01_0_n_n_wf

class Facts : Prop extends Facts₀ where

variable [Facts]
-- ==== Proof.SqReluMlp.lean ====
/-
  The mathematics both programs compute, stated once over arrays read at natural-number coordinates.

  A two-layer perceptron with a squared-ReLU activation: for a row `r` of the input (one of the 4·2048 = 8192
  token rows, each of 2048 features) and an output feature `d`,

      out r d = (∑ h < 8192, (max (∑ k < 2048, X r k · W1 h k  +  B1 h) 0)² · W2 d h)  +  B2 d .

  The hidden axis of 8192 units is cut into 8 tiles of 1024: `tile r d hb` is the part of the outer sum that runs
  over hidden units `1024·hb … 1024·hb + 1023`. Addition on the extended reals is commutative and associative, so
  the eight tiles add up to the whole sum in whatever grouping (`sum_tiles`); no finiteness is needed.

  Arrays are read through `at1` / `at2` / `at3`: the entry at natural coordinates, `0` outside the extents. This
  keeps every later statement over plain `ℕ → … → EReal` functions and `Finset.range` sums.
-/
import Idealize.ShloMosaic.PureOps.Ideal
import Idealize.ShloMosaic.PureOps.Ideal.Laws
import Idealize.ShloMosaic.Lib.ValueIdx
import Mathlib.Algebra.BigOperators.Fin

noncomputable section

open scoped BigOperators

namespace Cert.SqReluMlp

open Idealize.ShloMosaic Idealize.ShloMosaic.ValueIdx Finset

/-! ## Arrays read at natural coordinates -/

/-- A rank-1 array at a natural coordinate; `0` outside. -/
def at1 {N : ℕ} (A : (⟨1, ![N]⟩ : Shape).Idx → EReal) (a : ℕ) : EReal :=
  if h : a < N then A (ix1 ⟨a, h⟩) else 0

/-- A rank-2 array at natural coordinates; `0` outside. -/
def at2 {R C : ℕ} (A : (⟨2, ![R, C]⟩ : Shape).Idx → EReal) (r c : ℕ) : EReal :=
  if h : r < R ∧ c < C then A (ix2 ⟨r, h.1⟩ ⟨c, h.2⟩) else 0

/-- A rank-3 array at natural coordinates; `0` outside. -/
def at3 {P R C : ℕ} (A : (⟨3, ![P, R, C]⟩ : Shape).Idx → EReal) (p r c : ℕ) : EReal :=
  if h : p < P ∧ r < R ∧ c < C then A (ix3 ⟨p, h.1⟩ ⟨r, h.2.1⟩ ⟨c, h.2.2⟩) else 0

theorem at1_ix1 {N : ℕ} (A : (⟨1, ![N]⟩ : Shape).Idx → EReal) (a : Fin N) : A (ix1 a) = at1 A a.val := by
  unfold at1; rw [dif_pos a.isLt]

theorem at2_ix2 {R C : ℕ} (A : (⟨2, ![R, C]⟩ : Shape).Idx → EReal) (a : Fin R) (b : Fin C) :
    A (ix2 a b) = at2 A a.val b.val := by
  unfold at2; rw [dif_pos ⟨a.isLt, b.isLt⟩]

theorem at3_ix3 {P R C : ℕ} (A : (⟨3, ![P, R, C]⟩ : Shape).Idx → EReal) (a : Fin P) (b : Fin R) (c : Fin C) :
    A (ix3 a b c) = at3 A a.val b.val c.val := by
  unfold at3; rw [dif_pos ⟨a.isLt, b.isLt, c.isLt⟩]

theorem at1_of_lt {N : ℕ} (A : (⟨1, ![N]⟩ : Shape).Idx → EReal) (a : ℕ) (h : a < N) : at1 A a = A (ix1 ⟨a, h⟩) := by
  unfold at1; rw [dif_pos h]

theorem at2_of_lt {R C : ℕ} (A : (⟨2, ![R, C]⟩ : Shape).Idx → EReal) (r c : ℕ) (hr : r < R) (hc : c < C) :
    at2 A r c = A (ix2 ⟨r, hr⟩ ⟨c, hc⟩) := by
  unfold at2; rw [dif_pos ⟨hr, hc⟩]

theorem at3_of_lt {P R C : ℕ} (A : (⟨3, ![P, R, C]⟩ : Shape).Idx → EReal) (p r c : ℕ) (hp : p < P) (hr : r < R) (hc : c < C) :
    at3 A p r c = A (ix3 ⟨p, hp⟩ ⟨r, hr⟩ ⟨c, hc⟩) := by
  unfold at3; rw [dif_pos ⟨hp, hr, hc⟩]

/-- A sum over one coordinate of a `Fin`-indexed family that only looks at the coordinate's value is the sum over the range. -/
theorem sum_fin_eq_range (n : ℕ) (f : ℕ → EReal) : ∑ k : Fin n, f k.val = ∑ k ∈ range n, f k :=
  Fin.sum_univ_eq_sum_range f n

/-! ## The perceptron -/

/-- The squared ReLU. -/
def act (z : EReal) : EReal := max z 0 * max z 0

/-- Hidden unit `h` of row `r`, before the activation: the row against the unit's weights, plus its bias. -/
def hid (X W1 : ℕ → ℕ → EReal) (B1 : ℕ → EReal) (r h : ℕ) : EReal :=
  (∑ k ∈ range 2048, X r k * W1 h k) + B1 h

/-- Hidden unit `h`'s contribution to output feature `d` of row `r`. -/
def term (X W1 : ℕ → ℕ → EReal) (B1 : ℕ → EReal) (W2 : ℕ → ℕ → EReal) (r d h : ℕ) : EReal :=
  act (hid X W1 B1 r h) * W2 d h

/-- The contributions of the 1024 hidden units of tile `hb`. -/
def tile (X W1 : ℕ → ℕ → EReal) (B1 : ℕ → EReal) (W2 : ℕ → ℕ → EReal) (r d hb : ℕ) : EReal :=
  ∑ j ∈ range 1024, term X W1 B1 W2 r d (1024 * hb + j)

/-- Output feature `d` of row `r`: all 8192 contributions, plus the output bias. -/
def out (X W1 : ℕ → ℕ → EReal) (B1 : ℕ → EReal) (W2 : ℕ → ℕ → EReal) (B2 : ℕ → EReal) (r d : ℕ) : EReal :=
  (∑ h ∈ range 8192, term X W1 B1 W2 r d h) + B2 d

/-- Consecutive blocks of `B` terms add up to the sum over the first `B·n` terms, in any additive commutative monoid. -/
theorem sum_blocks {M : Type*} [AddCommMonoid M] (f : ℕ → M) (B : ℕ) :
    ∀ n : ℕ, ∑ hb ∈ range n, ∑ j ∈ range B, f (B * hb + j) = ∑ h ∈ range (B * n), f h
  | 0 => by simp
  | n + 1 => by
    rw [sum_range_succ, sum_blocks f B n, Nat.mul_succ, sum_range_add]

/-- The eight tiles are the whole hidden sum. -/
theorem sum_tiles (X W1 : ℕ → ℕ → EReal) (B1 : ℕ → EReal) (W2 : ℕ → ℕ → EReal) (r d : ℕ) :
    ∑ hb ∈ range 8, tile X W1 B1 W2 r d hb = ∑ h ∈ range 8192, term X W1 B1 W2 r d h :=
  sum_blocks (term X W1 B1 W2 r d) 1024 8

/-! ## The two programs' arguments as the perceptron's inputs -/

/-- The input `x` of shape [4, 2048, 2048] as 8192 token rows: row `r` is batch `r / 2048`, position `r % 2048`. -/
def rows (x : (⟨3, ![4, 2048, 2048]⟩ : Shape).Idx → EReal) (r k : ℕ) : EReal := at3 x (r / 2048) (r % 2048) k

/-- Row `2048·b + s` is batch `b`, position `s`. -/
theorem rows_at (x : (⟨3, ![4, 2048, 2048]⟩ : Shape).Idx → EReal) (b s : ℕ) (hs : s < 2048) (k : ℕ) :
    rows x (2048 * b + s) k = at3 x b s k := by
  unfold rows
  rw [show (2048 * b + s) / 2048 = b by omega, show (2048 * b + s) % 2048 = s by omega]

/-- The perceptron of the five arguments, as an array of shape [4, 2048, 2048]: entry (b, s, d) is output feature `d`
    of token row `2048·b + s`. Both programs end with this array. -/
def mlp (x : (⟨3, ![4, 2048, 2048]⟩ : Shape).Idx → EReal) (w1 : (⟨2, ![8192, 2048]⟩ : Shape).Idx → EReal)
    (b1 : (⟨1, ![8192]⟩ : Shape).Idx → EReal) (w2 : (⟨2, ![2048, 8192]⟩ : Shape).Idx → EReal)
    (b2 : (⟨1, ![2048]⟩ : Shape).Idx → EReal) : (⟨3, ![4, 2048, 2048]⟩ : Shape).Idx → EReal :=
  fun i => out (rows x) (at2 w1) (at1 b1) (at2 w2) (at1 b2) (2048 * (i 0).val + (i 1).val) (i 2).val

end Cert.SqReluMlp

end
-- ==== Proof.ReferenceMlp.lean ====
/-
  The reference program computes the perceptron.

  Read one operation at a time, entry (b, s, d) of the reference's result is

      (∑ h, (max (∑ k, x[b,s,k] · w1[h,k] + b1[h]) 0)² · w2[d,h]) + b2[d] :

  the two einsums are sums over the contracted feature, the biases are broadcast along the other axes, the ReLU is a
  maximum with a broadcast zero and the square a product. That is `mlp` at (b, s, d), token row `2048·b + s`.
-/
import proofs.«158210_j22694607192381_1_alg».proof.Proof.Gen.ReferenceIdeal.Read
import proofs.«158210_j22694607192381_1_alg».proof.Proof.SqReluMlp

noncomputable section

open scoped BigOperators

namespace Cert.ReferenceIdeal.Mlp

open Cert.ReferenceIdeal Cert.ReferenceIdeal.Read Cert.SqReluMlp
open Idealize.ShloMosaic Idealize.ShloMosaic.ValueIdx Finset

variable (x0 : S4x2048x2048.Idx → EReal) (x1 : S8192x2048.Idx → EReal) (x2 : S8192.Idx → EReal)
  (x3 : S2048x8192.Idx → EReal) (x4 : S2048.Idx → EReal)

/-- The activated hidden unit `h` of token (b, s), as the reference computes it. -/
theorem hidden_at (b : Fin 4) (s : Fin 2048) (h : Fin 8192) :
    val_main_v5 (F := Ideal) x0 x1 x2 (ix3 b s h)
      = act (hid (rows x0) (at2 x1) (at1 x2) (2048 * b.val + s.val) h.val) := by
  rw [val_main_v5_apply, val_main_v4_apply, val_main_v3_apply, val_main_v0_apply, val_main_v2_apply, val_main_v1_apply,
    val_main_call0_v0_apply, val_main_call0_cst_apply]
  simp only [Ideal.mulf_def, Ideal.maximumf_def, Ideal.addf_def, Ideal.ofBits_def, Ideal.ofBits_zero_f32]
  unfold act hid
  have e : (∑ k : Fin 2048, x0 (lidx_main_v0 (ix3 b s h) k) * x1 (ridx_main_v0 (ix3 b s h) k))
        + x2 (idx_main_v1 (idx_main_v2 (ix3 b s h)))
      = (∑ k ∈ range 2048, rows x0 (2048 * b.val + s.val) k * at2 x1 h.val k) + at1 x2 h.val := by
    rw [← sum_fin_eq_range 2048 (fun k => rows x0 (2048 * b.val + s.val) k * at2 x1 h.val k)]
    congr 1
    · refine Finset.sum_congr rfl fun k _ => ?_
      rw [show lidx_main_v0 (ix3 b s h) k = ix3 b s k from funext fun a => by
            match a with | ⟨0, _⟩ => rfl | ⟨1, _⟩ => rfl | ⟨2, _⟩ => rfl,
          show ridx_main_v0 (ix3 b s h) k = ix2 h k from funext fun a => by
            match a with | ⟨0, _⟩ => rfl | ⟨1, _⟩ => rfl,
          at3_ix3 x0, at2_ix2 x1, rows_at x0 b.val s.val s.isLt]
    · rw [show idx_main_v1 (idx_main_v2 (ix3 b s h)) = ix1 h from funext fun a => by
            match a with | ⟨0, _⟩ => rfl]
      exact at1_ix1 x2 h
  rw [e]

/-- The reference's result is the perceptron of its arguments. -/
theorem result_eq : val_main_v9 (F := Ideal) x0 x1 x2 x3 x4 = mlp x0 x1 x2 x3 x4 := by
  funext i
  obtain ⟨b, s, d, rfl⟩ : ∃ (b : Fin 4) (s : Fin 2048) (d : Fin 2048), i = ix3 b s d := ⟨i 0, i 1, i 2, eq_ix3 i⟩
  rw [val_main_v9_apply, val_main_v6_apply, val_main_v8_apply, val_main_v7_apply]
  simp only [Ideal.addf_def]
  unfold mlp out
  show _ = (∑ h ∈ range 8192, term (rows x0) (at2 x1) (at1 x2) (at2 x3) (2048 * b.val + s.val) d.val h) + at1 x4 d.val
  rw [← sum_fin_eq_range 8192 (fun h => term (rows x0) (at2 x1) (at1 x2) (at2 x3) (2048 * b.val + s.val) d.val h)]
  congr 1
  · refine Finset.sum_congr rfl fun h _ => ?_
    rw [show lidx_main_v6 (ix3 b s d) h = ix3 b s h from funext fun a => by
          match a with | ⟨0, _⟩ => rfl | ⟨1, _⟩ => rfl | ⟨2, _⟩ => rfl,
        show ridx_main_v6 (ix3 b s d) h = ix2 d h from funext fun a => by
          match a with | ⟨0, _⟩ => rfl | ⟨1, _⟩ => rfl,
        hidden_at, at2_ix2 x3]
    rfl
  · rw [show idx_main_v7 (idx_main_v8 (ix3 b s d)) = ix1 d from funext fun a => by
          match a with | ⟨0, _⟩ => rfl]
    exact at1_ix1 x4 d

end Cert.ReferenceIdeal.Mlp

end
-- ==== Proof.BodyPieces.lean ====
/-
  What one run of the kernel body leaves behind, case by case, as plain values.

  The body keeps a running sum in a scratch block. At the first hidden tile of a row block it clears the scratch and
  then adds the tile's contribution (case A: the scratch ends at `step … 0`); at every later tile it adds the
  contribution to what the tile before left (cases B and C: `step … acc`); at the last tile it also writes the output
  block, the finished sum plus the output bias (case C: `finish (step … acc) bias`). Here `step` is the body's one
  accumulating store (`k0_pay2`), `0` its clearing store (`k0_pay1`) and `finish` its output store (`k0_pay3`).

  Each statement is read off the stores the symbolic run of the body found: every store covers its whole block, so
  the block's final contents are the last store's payload, with the loads inside it reading whole buffers.
-/
import proofs.«158210_j22694607192381_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Body

open Cert.KernelIdeal Cert.KernelIdeal.Gen

variable {F : FTy → Type} [FloatOps F]

/-- Every load and store of the body starts at the block's origin. -/
theorem origin : (![0, 0] : Fin 2 → Nat) = fun _ => 0 := funext fun a => by fin_cases a <;> rfl

/-- First tile of a row block: the scratch is cleared, then the tile's contribution is added to the cleared block. -/
theorem scratch_first (c : Dev nD) (i : grid0.Coords) (a2 : Memref sig .tc .vmem S512x2048 .bf16) (h2 : a2.IsWhole) (a3 : Memref sig .tc .vmem S1024x2048 .bf16) (h3 : a3.IsWhole) (a4 : Memref sig .tc .vmem S1x1024 .f32) (h4 : a4.IsWhole) (a5 : Memref sig .tc .vmem S2048x1024 .bf16) (h5 : a5.IsWhole) (a6 : Memref sig .tc .vmem S1x2048 .f32) (h6 : a6.IsWhole) (a7 : Memref sig .tc .vmem S512x2048 .f32) (h7 : a7.IsWhole) (a8 : Memref sig .tc .vmem S512x2048 .f32) (h8 : a8.IsWhole) (hc0 : cond0_0 i) (hc1 : ¬cond0_1 i) (x0 : Vec F S512x2048 .bf16) (x1 : Vec F S1024x2048 .bf16) (x2 : Vec F S1x1024 .f32) (x3 : Vec F S2048x1024 .bf16) (x4 : Vec F S1x2048 .f32) :
    sout0_A_0 c i a2 h2 a3 h3 a4 h4 a5 h5 a6 h6 a7 h7 a8 h8 hc0 hc1 x0 x1 x2 x3 x4 = k0_pay2 x0 x1 x2 x3 (k0_pay1 (F := F)) := by
  unfold sout0_A_0
  rw [View.read_writes_eq_canon _ _ _ (scover0_A_0 c i a2 h2 a3 h3 a4 h4 a5 h5 a6 h6 a7 h7 a8 h8 hc0 hc1 x0 x1 x2 x3 x4)]
  unfold kernelRun0_A
  dsimp only
  sl_unfold_words
  rw [View.canon_cons_unit_zero (S := S512x2048) origin]
  simp only [View.readAt_eq_ld, h2.read_unread, h3.read_unread, h4.read_unread, h5.read_unread,
    View.readCov_unit_zero (S := S512x2048) _ origin,
    View.ld_unit_zero (S := S512x2048) origin, View.ld_unit_zero (S := S1024x2048) origin,
    View.ld_unit_zero (S := S1x1024) origin, View.ld_unit_zero (S := S2048x1024) origin]

/-- A middle tile: the tile's contribution is added to what the tile before left in the scratch. -/
theorem scratch_middle (c : Dev nD) (i : grid0.Coords) (a2 : Memref sig .tc .vmem S512x2048 .bf16) (h2 : a2.IsWhole) (a3 : Memref sig .tc .vmem S1024x2048 .bf16) (h3 : a3.IsWhole) (a4 : Memref sig .tc .vmem S1x1024 .f32) (h4 : a4.IsWhole) (a5 : Memref sig .tc .vmem S2048x1024 .bf16) (h5 : a5.IsWhole) (a6 : Memref sig .tc .vmem S1x2048 .f32) (h6 : a6.IsWhole) (a7 : Memref sig .tc .vmem S512x2048 .f32) (h7 : a7.IsWhole) (a8 : Memref sig .tc .vmem S512x2048 .f32) (h8 : a8.IsWhole) (hc0 : ¬cond0_0 i) (hc1 : ¬cond0_1 i) (x0 : Vec F S512x2048 .bf16) (x1 : Vec F S1024x2048 .bf16) (x2 : Vec F S1x1024 .f32) (x3 : Vec F S2048x1024 .bf16) (x4 : Vec F S1x2048 .f32) (acc : Vec F S512x2048 .f32) :
    sout0_B_0 c i a2 h2 a3 h3 a4 h4 a5 h5 a6 h6 a7 h7 a8 h8 hc0 hc1 x0 x1 x2 x3 x4 acc = k0_pay2 x0 x1 x2 x3 acc := by
  unfold sout0_B_0
  rw [View.read_writes_eq_canon _ _ _ (scover0_B_0 c i a2 h2 a3 h3 a4 h4 a5 h5 a6 h6 a7 h7 a8 h8 hc0 hc1 x0 x1 x2 x3 x4 acc)]
  unfold kernelRun0_B
  dsimp only
  sl_unfold_words
  rw [View.canon_unit_zero origin]
  simp only [View.readAt_eq_ld, h2.read_unread, h3.read_unread, h4.read_unread, h5.read_unread, h8.read_unread,
    View.ld_unit_zero (S := S512x2048) origin, View.ld_unit_zero (S := S1024x2048) origin,
    View.ld_unit_zero (S := S1x1024) origin, View.ld_unit_zero (S := S2048x1024) origin]

/-- The last tile leaves the scratch as a middle tile does. -/
theorem scratch_last (c : Dev nD) (i : grid0.Coords) (a2 : Memref sig .tc .vmem S512x2048 .bf16) (h2 : a2.IsWhole) (a3 : Memref sig .tc .vmem S1024x2048 .bf16) (h3 : a3.IsWhole) (a4 : Memref sig .tc .vmem S1x1024 .f32) (h4 : a4.IsWhole) (a5 : Memref sig .tc .vmem S2048x1024 .bf16) (h5 : a5.IsWhole) (a6 : Memref sig .tc .vmem S1x2048 .f32) (h6 : a6.IsWhole) (a7 : Memref sig .tc .vmem S512x2048 .f32) (h7 : a7.IsWhole) (a8 : Memref sig .tc .vmem S512x2048 .f32) (h8 : a8.IsWhole) (hc0 : ¬cond0_0 i) (hc1 : cond0_1 i) (x0 : Vec F S512x2048 .bf16) (x1 : Vec F S1024x2048 .bf16) (x2 : Vec F S1x1024 .f32) (x3 : Vec F S2048x1024 .bf16) (x4 : Vec F S1x2048 .f32) (acc : Vec F S512x2048 .f32) :
    sout0_C_0 c i a2 h2 a3 h3 a4 h4 a5 h5 a6 h6 a7 h7 a8 h8 hc0 hc1 x0 x1 x2 x3 x4 acc = k0_pay2 x0 x1 x2 x3 acc := by
  unfold sout0_C_0
  rw [View.read_writes_eq_canon _ _ _ (scover0_C_0 c i a2 h2 a3 h3 a4 h4 a5 h5 a6 h6 a7 h7 a8 h8 hc0 hc1 x0 x1 x2 x3 x4 acc)]
  unfold kernelRun0_C
  dsimp only
  sl_unfold_words
  rw [View.canon_unit_zero origin]
  simp only [View.readAt_eq_ld, h2.read_unread, h3.read_unread, h4.read_unread, h5.read_unread, h8.read_unread,
    View.ld_unit_zero (S := S512x2048) origin, View.ld_unit_zero (S := S1024x2048) origin,
    View.ld_unit_zero (S := S1x1024) origin, View.ld_unit_zero (S := S2048x1024) origin]

/-- The last tile also writes the output block: the finished sum, read back from the scratch, plus the output bias. -/
theorem output_last (c : Dev nD) (i : grid0.Coords) (a2 : Memref sig .tc .vmem S512x2048 .bf16) (h2 : a2.IsWhole) (a3 : Memref sig .tc .vmem S1024x2048 .bf16) (h3 : a3.IsWhole) (a4 : Memref sig .tc .vmem S1x1024 .f32) (h4 : a4.IsWhole) (a5 : Memref sig .tc .vmem S2048x1024 .bf16) (h5 : a5.IsWhole) (a6 : Memref sig .tc .vmem S1x2048 .f32) (h6 : a6.IsWhole) (a7 : Memref sig .tc .vmem S512x2048 .f32) (h7 : a7.IsWhole) (a8 : Memref sig .tc .vmem S512x2048 .f32) (h8 : a8.IsWhole) (hc0 : ¬cond0_0 i) (hc1 : cond0_1 i) (x0 : Vec F S512x2048 .bf16) (x1 : Vec F S1024x2048 .bf16) (x2 : Vec F S1x1024 .f32) (x3 : Vec F S2048x1024 .bf16) (x4 : Vec F S1x2048 .f32) (acc : Vec F S512x2048 .f32) :
    out0_C_5 c i a2 h2 a3 h3 a4 h4 a5 h5 a6 h6 a7 h7 a8 h8 hc0 hc1 x0 x1 x2 x3 x4 acc = k0_pay3 (k0_pay2 x0 x1 x2 x3 acc) x4 := by
  unfold out0_C_5
  rw [View.read_writes_eq_canon _ _ _ (cover0_C_5 c i a2 h2 a3 h3 a4 h4 a5 h5 a6 h6 a7 h7 a8 h8 hc0 hc1 x0 x1 x2 x3 x4 acc)]
  unfold kernelRun0_C
  dsimp only
  sl_unfold_words
  rw [View.canon_unit_zero origin]
  simp only [View.readAt_eq_ld, h2.read_unread, h3.read_unread, h4.read_unread, h5.read_unread, h6.read_unread, h8.read_unread,
    View.readCov_unit_zero (S := S512x2048) _ origin,
    View.ld_unit_zero (S := S512x2048) origin, View.ld_unit_zero (S := S1024x2048) origin,
    View.ld_unit_zero (S := S1x1024) origin, View.ld_unit_zero (S := S2048x1024) origin,
    View.ld_unit_zero (S := S1x2048) origin]

end Cert.KernelIdeal.Body

end
-- ==== Proof.BodyPayload.lean ====
/-
  The body's three stores read at one entry, on the extended reals.

  With `x` a 512-row block of the input, `w1` and `b1` the first layer's weights and biases of one 1024-unit hidden
  tile, `w2` the second layer's weights of that tile and `acc` the running sum, the accumulating store holds at
  (r, d)

      acc[r,d] + ∑ j < 1024, (max (∑ k < 2048, x[r,k] · w1[j,k] + b1[0,j]) 0)² · w2[d,j] ,

  both matrix products being plain sums over the contracted axis (the products start from a zero block, and a
  change of float format is the identity on the extended reals). The clearing store holds `0`, and the output
  store adds the output bias `b2[0,d]`.
-/
import proofs.«158210_j22694607192381_1_alg».proof.Proof.Gen.KernelIdeal.Skeleton
import proofs.«158210_j22694607192381_1_alg».proof.Proof.SqReluMlp
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Cert.SqReluMlp
open Idealize.ShloMosaic Idealize.ShloMosaic.ValueIdx Finset

/-! ## The first product: a block of rows against a tile of hidden units, contracted over the 2048 features -/

theorem hidden_lhs_0 (i : S512x1024.Idx) (q : dot_S512x2048_S1024x2048_S512x1024_1_1_0_0_n_n.contr.Idx) :
    (dot_S512x2048_S1024x2048_S512x1024_1_1_0_0_n_n.lhsIdx i q 0).val = (i 0).val := by
  unfold DotDims.lhsIdx
  rw [dif_neg (show ¬(0 : Fin S512x2048.rank) ∈ dot_S512x2048_S1024x2048_S512x1024_1_1_0_0_n_n.lhsBatch by decide), dif_pos (show (0 : Fin S512x2048.rank) ∈ dot_S512x2048_S1024x2048_S512x1024_1_1_0_0_n_n.lhsNonContracting by decide)]
  rfl
theorem hidden_lhs_1 (i : S512x1024.Idx) (q : dot_S512x2048_S1024x2048_S512x1024_1_1_0_0_n_n.contr.Idx) :
    (dot_S512x2048_S1024x2048_S512x1024_1_1_0_0_n_n.lhsIdx i q 1).val = (q ⟨0, by decide⟩).val :=
  dot_S512x2048_S1024x2048_S512x1024_1_1_0_0_n_n.lhsIdx_val_of_single rfl i q
theorem hidden_rhs_0 (i : S512x1024.Idx) (q : dot_S512x2048_S1024x2048_S512x1024_1_1_0_0_n_n.contr.Idx) :
    (dot_S512x2048_S1024x2048_S512x1024_1_1_0_0_n_n.rhsIdx i q 0).val = (i 1).val := by
  unfold DotDims.rhsIdx
  rw [dif_neg (show ¬(0 : Fin S1024x2048.rank) ∈ dot_S512x2048_S1024x2048_S512x1024_1_1_0_0_n_n.rhsBatch by decide), dif_pos (show (0 : Fin S1024x2048.rank) ∈ dot_S512x2048_S1024x2048_S512x1024_1_1_0_0_n_n.rhsNonContracting by decide)]
  rfl
theorem hidden_rhs_1 (i : S512x1024.Idx) (q : dot_S512x2048_S1024x2048_S512x1024_1_1_0_0_n_n.contr.Idx) :
    (dot_S512x2048_S1024x2048_S512x1024_1_1_0_0_n_n.rhsIdx i q 1).val = (q ⟨0, by decide⟩).val :=
  dot_S512x2048_S1024x2048_S512x1024_1_1_0_0_n_n.rhsIdx_val_of_single rfl i q

/-- Entry (r, j) of the first product: row `r` of the block against hidden unit `j`'s weights. -/
theorem hidden_product (x : FVec Ideal S512x2048 .bf16) (w : FVec Ideal S1024x2048 .bf16) (r : Fin 512) (j : Fin 1024) :
    matmul dot_S512x2048_S1024x2048_S512x1024_1_1_0_0_n_n none x w (constant S512x1024 .f32 0x00000000#32) (ix2 r j)
      = ∑ k ∈ range 2048, at2 x r.val k * at2 w j.val k := by
  simp only [matmul]
  rw [Ideal.matmul_constant_zero_apply, ← Equiv.sum_comp (contrEquiv1 dot_S512x2048_S1024x2048_S512x1024_1_1_0_0_n_n 2048 rfl rfl).symm,
    ← sum_fin_eq_range 2048 (fun k => at2 x r.val k * at2 w j.val k)]
  refine Finset.sum_congr rfl fun k _ => ?_
  have hk := contrEquiv1_symm_val dot_S512x2048_S1024x2048_S512x1024_1_1_0_0_n_n 2048 rfl rfl k
  have el : dot_S512x2048_S1024x2048_S512x1024_1_1_0_0_n_n.lhsIdx (ix2 r j) ((contrEquiv1 dot_S512x2048_S1024x2048_S512x1024_1_1_0_0_n_n 2048 rfl rfl).symm k) = ix2 r k := funext fun a => Fin.ext (by
    match a with
    | ⟨0, _⟩ => exact hidden_lhs_0 _ _
    | ⟨1, _⟩ => exact (hidden_lhs_1 _ _).trans hk)
  have er : dot_S512x2048_S1024x2048_S512x1024_1_1_0_0_n_n.rhsIdx (ix2 r j) ((contrEquiv1 dot_S512x2048_S1024x2048_S512x1024_1_1_0_0_n_n 2048 rfl rfl).symm k) = ix2 j k := funext fun a => Fin.ext (by
    match a with
    | ⟨0, _⟩ => exact hidden_rhs_0 _ _
    | ⟨1, _⟩ => exact (hidden_rhs_1 _ _).trans hk)
  rw [el, er, at2_ix2 x, at2_ix2 w]

/-! ## The second product: the activated tile against the output weights, contracted over the tile's 1024 units -/

theorem output_lhs_0 (i : S512x2048.Idx) (q : dot_S512x1024_S2048x1024_S512x2048_1_1_0_0_n_n.contr.Idx) :
    (dot_S512x1024_S2048x1024_S512x2048_1_1_0_0_n_n.lhsIdx i q 0).val = (i 0).val := by
  unfold DotDims.lhsIdx
  rw [dif_neg (show ¬(0 : Fin S512x1024.rank) ∈ dot_S512x1024_S2048x1024_S512x2048_1_1_0_0_n_n.lhsBatch by decide), dif_pos (show (0 : Fin S512x1024.rank) ∈ dot_S512x1024_S2048x1024_S512x2048_1_1_0_0_n_n.lhsNonContracting by decide)]
  rfl
theorem output_lhs_1 (i : S512x2048.Idx) (q : dot_S512x1024_S2048x1024_S512x2048_1_1_0_0_n_n.contr.Idx) :
    (dot_S512x1024_S2048x1024_S512x2048_1_1_0_0_n_n.lhsIdx i q 1).val = (q ⟨0, by decide⟩).val :=
  dot_S512x1024_S2048x1024_S512x2048_1_1_0_0_n_n.lhsIdx_val_of_single rfl i q
theorem output_rhs_0 (i : S512x2048.Idx) (q : dot_S512x1024_S2048x1024_S512x2048_1_1_0_0_n_n.contr.Idx) :
    (dot_S512x1024_S2048x1024_S512x2048_1_1_0_0_n_n.rhsIdx i q 0).val = (i 1).val := by
  unfold DotDims.rhsIdx
  rw [dif_neg (show ¬(0 : Fin S2048x1024.rank) ∈ dot_S512x1024_S2048x1024_S512x2048_1_1_0_0_n_n.rhsBatch by decide), dif_pos (show (0 : Fin S2048x1024.rank) ∈ dot_S512x1024_S2048x1024_S512x2048_1_1_0_0_n_n.rhsNonContracting by decide)]
  rfl
theorem output_rhs_1 (i : S512x2048.Idx) (q : dot_S512x1024_S2048x1024_S512x2048_1_1_0_0_n_n.contr.Idx) :
    (dot_S512x1024_S2048x1024_S512x2048_1_1_0_0_n_n.rhsIdx i q 1).val = (q ⟨0, by decide⟩).val :=
  dot_S512x1024_S2048x1024_S512x2048_1_1_0_0_n_n.rhsIdx_val_of_single rfl i q

/-- Entry (r, d) of the second product: row `r` of the activated tile against output feature `d`'s weights. -/
theorem output_product (a : FVec Ideal S512x1024 .bf16) (w : FVec Ideal S2048x1024 .bf16) (r : Fin 512) (d : Fin 2048) :
    matmul dot_S512x1024_S2048x1024_S512x2048_1_1_0_0_n_n none a w (constant S512x2048 .f32 0x00000000#32) (ix2 r d)
      = ∑ j : Fin 1024, a (ix2 r j) * w (ix2 d j) := by
  simp only [matmul]
  rw [Ideal.matmul_constant_zero_apply, ← Equiv.sum_comp (contrEquiv1 dot_S512x1024_S2048x1024_S512x2048_1_1_0_0_n_n 1024 rfl rfl).symm]
  refine Finset.sum_congr rfl fun k _ => ?_
  have hk := contrEquiv1_symm_val dot_S512x1024_S2048x1024_S512x2048_1_1_0_0_n_n 1024 rfl rfl k
  have el : dot_S512x1024_S2048x1024_S512x2048_1_1_0_0_n_n.lhsIdx (ix2 r d) ((contrEquiv1 dot_S512x1024_S2048x1024_S512x2048_1_1_0_0_n_n 1024 rfl rfl).symm k) = ix2 r k := funext fun a => Fin.ext (by
    match a with
    | ⟨0, _⟩ => exact output_lhs_0 _ _
    | ⟨1, _⟩ => exact (output_lhs_1 _ _).trans hk)
  have er : dot_S512x1024_S2048x1024_S512x2048_1_1_0_0_n_n.rhsIdx (ix2 r d) ((contrEquiv1 dot_S512x1024_S2048x1024_S512x2048_1_1_0_0_n_n 1024 rfl rfl).symm k) = ix2 d k := funext fun a => Fin.ext (by
    match a with
    | ⟨0, _⟩ => exact output_rhs_0 _ _
    | ⟨1, _⟩ => exact (output_rhs_1 _ _).trans hk)
  rw [el, er]

/-! ## The biases: a one-row block repeated down the rows -/

/-- The hidden bias row, repeated for each of the 512 rows. -/
theorem hidden_bias (b : FVec Ideal S1x1024 .f32) (r : Fin 512) (j : Fin 1024) :
    broadcastTo S512x1024 b broadcasts_S1x1024_S512x1024 (ix2 r j) = at2 b 0 j.val := by
  rw [broadcastTo_apply b broadcasts_S1x1024_S512x1024 (ix2 r j) (ix2 (0 : Fin 1) j) (fun a => by
    match a with
    | ⟨0, _⟩ => show 0 = if (1 : ℕ) = 1 then 0 else r.val; rw [if_pos rfl]
    | ⟨1, _⟩ => show j.val = if (1024 : ℕ) = 1 then 0 else j.val; rw [if_neg (by decide)])]
  exact at2_ix2 b 0 j

/-- The output bias row, repeated for each of the 512 rows. -/
theorem output_bias (b : FVec Ideal S1x2048 .f32) (r : Fin 512) (d : Fin 2048) :
    broadcastTo S512x2048 b broadcasts_S1x2048_S512x2048 (ix2 r d) = at2 b 0 d.val := by
  rw [broadcastTo_apply b broadcasts_S1x2048_S512x2048 (ix2 r d) (ix2 (0 : Fin 1) d) (fun a => by
    match a with
    | ⟨0, _⟩ => show 0 = if (1 : ℕ) = 1 then 0 else r.val; rw [if_pos rfl]
    | ⟨1, _⟩ => show d.val = if (2048 : ℕ) = 1 then 0 else d.val; rw [if_neg (by decide)])]
  exact at2_ix2 b 0 d

/-! ## The three stores -/

/-- The clearing store holds zero. -/
theorem clear_apply (i : S512x2048.Idx) : k0_pay1 (F := Ideal) i = 0 := by
  unfold k0_pay1
  simp only [shapeCast_self]
  exact Ideal.ofBits_zero_f32

/-- The accumulating store at (r, d): the running sum plus the tile's 1024 contributions. -/
theorem step_apply (x : Vec Ideal S512x2048 .bf16) (w1 : Vec Ideal S1024x2048 .bf16) (b1 : Vec Ideal S1x1024 .f32)
    (w2 : Vec Ideal S2048x1024 .bf16) (acc : Vec Ideal S512x2048 .f32) (r : Fin 512) (d : Fin 2048) :
    k0_pay2 (F := Ideal) x w1 b1 w2 acc (ix2 r d)
      = acc (ix2 r d) + ∑ j ∈ range 1024,
          act ((∑ k ∈ range 2048, at2 x r.val k * at2 w1 j k) + at2 b1 0 j) * at2 w2 d.val j := by
  unfold k0_pay2
  simp only [shapeCast_self]
  rw [addf_apply, output_product,
    ← sum_fin_eq_range 1024 (fun j => act ((∑ k ∈ range 2048, at2 x r.val k * at2 w1 j k) + at2 b1 0 j) * at2 w2 d.val j)]
  congr 1
  refine Finset.sum_congr rfl fun j _ => ?_
  rw [truncf_apply, mulf_apply, maximumf_apply, addf_apply, hidden_product, hidden_bias, broadcast_apply, at2_ix2 w2]
  show max _ (Ideal.ofBits .f32 0x00000000#32) * max _ (Ideal.ofBits .f32 0x00000000#32) * _ = _
  rw [Ideal.ofBits_zero_f32]
  rfl

/-- The output store at (r, d): the finished sum plus the output bias. -/
theorem finish_apply (s : Vec Ideal S512x2048 .f32) (b2 : Vec Ideal S1x2048 .f32) (r : Fin 512) (d : Fin 2048) :
    k0_pay3 (F := Ideal) s b2 (ix2 r d) = s (ix2 r d) + at2 b2 0 d.val := by
  unfold k0_pay3
  simp only [shapeCast_self]
  rw [addf_apply, output_bias]

end Cert.KernelIdeal.Body

end
-- ==== Proof.WindowBlocks.lean ====
/-
  Where each block of the kernel's operands sits in its array, and what those arrays are.

  The grid has 16 × 8 points; point `t` works on row block `t / 8` and hidden tile `t % 8`. At point `t` the body sees
    rows       512·(t/8) … +511        of the input rows               (all 2048 features),
    rows       1024·(t%8) … +1023      of the first layer's weights    (all 2048 features),
    columns    1024·(t%8) … +1023      of the first layer's bias row,
    columns    1024·(t%8) … +1023      of the second layer's weights   (all 2048 output features),
    the whole second layer's bias row.
  The arrays themselves are written by the host lines before the kernel: the input reshaped from [4, 2048, 2048] to
  8192 rows, the two bias vectors reshaped to one-row matrices; the changes of float format are the identity on the
  extended reals.
-/
import proofs.«158210_j22694607192381_1_alg».proof.Proof.Gen.KernelIdeal.Frame
import proofs.«158210_j22694607192381_1_alg».proof.Proof.SqReluMlp
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem

namespace Cert.KernelIdeal.Blocks

open Cert.KernelIdeal Cert.KernelIdeal.Gen Cert.SqReluMlp
open Idealize.ShloMosaic.ValueIdx

variable (m : (ℓ : Loc nD τ sig) → Buf (Elt Ideal) ℓ)

/-! ## Names for the blocks and the arrays, at their literal shapes -/

abbrev xblk (c : Dev nD) (t : Fin cfg0.N) : Vec Ideal S512x2048 .bf16 := iblk m c 0 t
abbrev w1blk (c : Dev nD) (t : Fin cfg0.N) : Vec Ideal S1024x2048 .bf16 := iblk m c 1 t
abbrev b1blk (c : Dev nD) (t : Fin cfg0.N) : Vec Ideal S1x1024 .f32 := iblk m c 2 t
abbrev w2blk (c : Dev nD) (t : Fin cfg0.N) : Vec Ideal S2048x1024 .bf16 := iblk m c 3 t
abbrev b2blk (c : Dev nD) (t : Fin cfg0.N) : Vec Ideal S1x2048 .f32 := iblk m c 4 t

abbrev xarr (c : Dev nD) : Vec Ideal S8192x2048 .bf16 := V m c main_v1
abbrev w1arr (c : Dev nD) : Vec Ideal S8192x2048 .bf16 := V m c main_v2
abbrev b1arr (c : Dev nD) : Vec Ideal S1x8192 .f32 := V m c main_v4
abbrev w2arr (c : Dev nD) : Vec Ideal S2048x8192 .bf16 := V m c main_v3
abbrev b2arr (c : Dev nD) : Vec Ideal S1x2048 .f32 := V m c main_v5

theorem point_lt (t : Fin cfg0.N) : t.val < 128 := lt_of_lt_of_eq t.isLt (show cfg0.N = 128 from N_0)

/-- Which block each operand is on at point `t`: decided over the 128 points. -/
theorem block_index : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = 0 ∧ win0_2.index t (1 : Fin 2) = t.val % 8
    ∧ win0_3.index t (0 : Fin 2) = 0 ∧ win0_3.index t (1 : Fin 2) = t.val % 8
    ∧ win0_4.index t (0 : Fin 2) = 0 ∧ win0_4.index t (1 : Fin 2) = 0
    ∧ win0_5.index t (0 : Fin 2) = t.val / 8 ∧ win0_5.index t (1 : Fin 2) = 0 :=
  (by decide +kernel : ∀ t : Fin grid0.N, _)

/-! ## One entry of each block -/

theorem xblk_entry (c : Dev nD) (t : Fin cfg0.N) (r : Fin 512) (k : Fin 2048) (R : Fin 8192)
    (hR : R.val = 512 * (t.val / 8) + r.val) : xblk m c t (ix2 r k) = xarr m c (ix2 R k) := by
  have hi := block_index t
  show iblk m c 0 t (ix2 r k) = _
  unfold iblk
  rw [View.read_apply]
  show V m c main_v1 _ = V m c main_v1 _
  congr 1
  funext a
  apply Fin.ext
  match a with
  | ⟨0, _⟩ => show win0_0.index t 0 * 512 + 1 * r.val = R.val; rw [hi.1, hR]; omega
  | ⟨1, _⟩ => show win0_0.index t 1 * 2048 + 1 * k.val = k.val; rw [hi.2.1]; omega

theorem w1blk_entry (c : Dev nD) (t : Fin cfg0.N) (j : Fin 1024) (k : Fin 2048) (H : Fin 8192)
    (hH : H.val = 1024 * (t.val % 8) + j.val) : w1blk m c t (ix2 j k) = w1arr m c (ix2 H k) := by
  have hi := block_index t
  show iblk m c 1 t (ix2 j k) = _
  unfold iblk
  rw [View.read_apply]
  show V m c main_v2 _ = V m c main_v2 _
  congr 1
  funext a
  apply Fin.ext
  match a with
  | ⟨0, _⟩ => show win0_1.index t 0 * 1024 + 1 * j.val = H.val; rw [hi.2.2.1, hH]; omega
  | ⟨1, _⟩ => show win0_1.index t 1 * 2048 + 1 * k.val = k.val; rw [hi.2.2.2.1]; omega

theorem b1blk_entry (c : Dev nD) (t : Fin cfg0.N) (z : Fin 1) (j : Fin 1024) (H : Fin 8192)
    (hH : H.val = 1024 * (t.val % 8) + j.val) : b1blk m c t (ix2 z j) = b1arr m c (ix2 z H) := by
  have hi := block_index t
  show iblk m c 2 t (ix2 z j) = _
  unfold iblk
  rw [View.read_apply]
  show V m c main_v4 _ = V m c main_v4 _
  congr 1
  funext a
  apply Fin.ext
  match a with
  | ⟨0, _⟩ => show win0_2.index t 0 * 1 + 1 * z.val = z.val; rw [hi.2.2.2.2.1]; omega
  | ⟨1, _⟩ => show win0_2.index t 1 * 1024 + 1 * j.val = H.val; rw [hi.2.2.2.2.2.1, hH]; omega

theorem w2blk_entry (c : Dev nD) (t : Fin cfg0.N) (d : Fin 2048) (j : Fin 1024) (H : Fin 8192)
    (hH : H.val = 1024 * (t.val % 8) + j.val) : w2blk m c t (ix2 d j) = w2arr m c (ix2 d H) := by
  have hi := block_index t
  show iblk m c 3 t (ix2 d j) = _
  unfold iblk
  rw [View.read_apply]
  show V m c main_v3 _ = V m c main_v3 _
  congr 1
  funext a
  apply Fin.ext
  match a with
  | ⟨0, _⟩ => show win0_3.index t 0 * 2048 + 1 * d.val = d.val; rw [hi.2.2.2.2.2.2.1]; omega
  | ⟨1, _⟩ => show win0_3.index t 1 * 1024 + 1 * j.val = H.val; rw [hi.2.2.2.2.2.2.2.1, hH]; omega

theorem b2blk_entry (c : Dev nD) (t : Fin cfg0.N) (z : Fin 1) (d : Fin 2048) :
    b2blk m c t (ix2 z d) = b2arr m c (ix2 z d) := by
  have hi := block_index t
  show iblk m c 4 t (ix2 z d) = _
  unfold iblk
  rw [View.read_apply]
  show V m c main_v5 _ = V m c main_v5 _
  congr 1
  funext a
  apply Fin.ext
  match a with
  | ⟨0, _⟩ => show win0_4.index t 0 * 1 + 1 * z.val = z.val; rw [hi.2.2.2.2.2.2.2.2.1]; omega
  | ⟨1, _⟩ => show win0_4.index t 1 * 2048 + 1 * d.val = d.val; rw [hi.2.2.2.2.2.2.2.2.2.1]; omega

/-! ## The same at natural coordinates -/

theorem xblk_at (c : Dev nD) (t : Fin cfg0.N) (r k : ℕ) (hr : r < 512) :
    at2 (xblk m c t) r k = at2 (xarr m c) (512 * (t.val / 8) + r) k := by
  have hN := point_lt t
  by_cases hk : k < 2048
  · rw [at2_of_lt (xblk m c t) r k hr hk, at2_of_lt (xarr m c) (512 * (t.val / 8) + r) k (by omega) hk]
    exact xblk_entry m c t ⟨r, hr⟩ ⟨k, hk⟩ ⟨512 * (t.val / 8) + r, by omega⟩ rfl
  · unfold at2; rw [dif_neg (fun h => hk h.2), dif_neg (fun h => hk h.2)]

theorem w1blk_at (c : Dev nD) (t : Fin cfg0.N) (j k : ℕ) (hj : j < 1024) :
    at2 (w1blk m c t) j k = at2 (w1arr m c) (1024 * (t.val % 8) + j) k := by
  have hN := point_lt t
  by_cases hk : k < 2048
  · rw [at2_of_lt (w1blk m c t) j k hj hk, at2_of_lt (w1arr m c) (1024 * (t.val % 8) + j) k (by omega) hk]
    exact w1blk_entry m c t ⟨j, hj⟩ ⟨k, hk⟩ ⟨1024 * (t.val % 8) + j, by omega⟩ rfl
  · unfold at2; rw [dif_neg (fun h => hk h.2), dif_neg (fun h => hk h.2)]

theorem b1blk_at (c : Dev nD) (t : Fin cfg0.N) (j : ℕ) (hj : j < 1024) :
    at2 (b1blk m c t) 0 j = at2 (b1arr m c) 0 (1024 * (t.val % 8) + j) := by
  have hN := point_lt t
  rw [at2_of_lt (b1blk m c t) 0 j (by decide) hj, at2_of_lt (b1arr m c) 0 (1024 * (t.val % 8) + j) (by decide) (by omega)]
  exact b1blk_entry m c t ⟨0, by decide⟩ ⟨j, hj⟩ ⟨1024 * (t.val % 8) + j, by omega⟩ rfl

theorem w2blk_at (c : Dev nD) (t : Fin cfg0.N) (d j : ℕ) (hj : j < 1024) :
    at2 (w2blk m c t) d j = at2 (w2arr m c) d (1024 * (t.val % 8) + j) := by
  have hN := point_lt t
  by_cases hd : d < 2048
  · rw [at2_of_lt (w2blk m c t) d j hd hj, at2_of_lt (w2arr m c) d (1024 * (t.val % 8) + j) hd (by omega)]
    exact w2blk_entry m c t ⟨d, hd⟩ ⟨j, hj⟩ ⟨1024 * (t.val % 8) + j, by omega⟩ rfl
  · unfold at2; rw [dif_neg (fun h => hd h.1), dif_neg (fun h => hd h.1)]

theorem b2blk_at (c : Dev nD) (t : Fin cfg0.N) (d : ℕ) :
    at2 (b2blk m c t) 0 d = at2 (b2arr m c) 0 d := by
  by_cases hd : d < 2048
  · rw [at2_of_lt (b2blk m c t) 0 d (by decide) hd, at2_of_lt (b2arr m c) 0 d (by decide) hd]
    exact b2blk_entry m c t ⟨0, by decide⟩ ⟨d, hd⟩
  · unfold at2; rw [dif_neg (fun h => hd h.2), dif_neg (fun h => hd h.2)]

/-! ## The arrays, from the arguments -/

/-- The input rows the kernel reads: the argument `x` reshaped to 8192 rows (the change of format is the identity). -/
theorem xarr_eq (c : Dev nD) :
    (xarr m c : S8192x2048.Idx → EReal)
      = shapeCast S8192x2048 (m ((c : Thread nD τ).loc main_arg0)) shapeCasts_S4x2048x2048_S8192x2048 := by
  show StableHlo.after hostOps0 (fun b => m (c, b)) (Proc.devRef .tc main_v1) = _
  after_results
  rfl

theorem w1arr_eq (c : Dev nD) : (w1arr m c : S8192x2048.Idx → EReal) = m ((c : Thread nD τ).loc main_arg1) := by
  show StableHlo.after hostOps0 (fun b => m (c, b)) (Proc.devRef .tc main_v2) = _
  after_results
  rfl

theorem w2arr_eq (c : Dev nD) : (w2arr m c : S2048x8192.Idx → EReal) = m ((c : Thread nD τ).loc main_arg3) := by
  show StableHlo.after hostOps0 (fun b => m (c, b)) (Proc.devRef .tc main_v3) = _
  after_results
  rfl

theorem b1arr_eq (c : Dev nD) :
    (b1arr m c : S1x8192.Idx → EReal) = shapeCast S1x8192 (m ((c : Thread nD τ).loc main_arg2)) shapeCasts_S8192_S1x8192 := by
  show StableHlo.after hostOps0 (fun b => m (c, b)) (Proc.devRef .tc main_v4) = _
  after_results
  rfl

theorem b2arr_eq (c : Dev nD) :
    (b2arr m c : S1x2048.Idx → EReal) = shapeCast S1x2048 (m ((c : Thread nD τ).loc main_arg4)) shapeCasts_S2048_S1x2048 := by
  show StableHlo.after hostOps0 (fun b => m (c, b)) (Proc.devRef .tc main_v5) = _
  after_results
  rfl

/-- Row `R` of the kernel's input rows is batch `R / 2048`, position `R % 2048` of the argument. -/
theorem xarr_at (c : Dev nD) (R k : ℕ) : at2 (xarr m c) R k = rows (m ((c : Thread nD τ).loc main_arg0)) R k := by
  unfold rows
  by_cases h : R < 8192 ∧ k < 2048
  · rw [at2_of_lt (xarr m c) R k h.1 h.2, at3_of_lt _ (R / 2048) (R % 2048) k (by omega) (by omega) h.2, xarr_eq]
    exact shapeCast_apply _ shapeCasts_S4x2048x2048_S8192x2048 _ _ (by
      rw [Shape.rowMajor_val_three, Shape.rowMajor_val_two]
      show (R / 2048 * 2048 + R % 2048) * 2048 + k = R * 2048 + k
      omega)
  · unfold at2 at3
    rw [dif_neg h, dif_neg (fun h' => h ⟨by omega, h'.2.2⟩)]

theorem w1arr_at (c : Dev nD) : at2 (w1arr m c) = at2 (m ((c : Thread nD τ).loc main_arg1)) := by
  rw [w1arr_eq]

theorem w2arr_at (c : Dev nD) : at2 (w2arr m c) = at2 (m ((c : Thread nD τ).loc main_arg3)) := by
  rw [w2arr_eq]

/-- The first layer's bias row is the bias vector. -/
theorem b1arr_at (c : Dev nD) (h : ℕ) : at2 (b1arr m c) 0 h = at1 (m ((c : Thread nD τ).loc main_arg2)) h := by
  by_cases hh : h < 8192
  · rw [at2_of_lt (b1arr m c) 0 h (by decide) hh, at1_of_lt _ h hh, b1arr_eq]
    exact shapeCast_apply _ shapeCasts_S8192_S1x8192 _ _ (by
      rw [Shape.rowMajor_val_one, Shape.rowMajor_val_two]
      show h = 0 * 8192 + h
      omega)
  · unfold at2 at1
    rw [dif_neg (fun h' => hh h'.2), dif_neg hh]

/-- The second layer's bias row is the bias vector. -/
theorem b2arr_at (c : Dev nD) (d : ℕ) : at2 (b2arr m c) 0 d = at1 (m ((c : Thread nD τ).loc main_arg4)) d := by
  by_cases hd : d < 2048
  · rw [at2_of_lt (b2arr m c) 0 d (by decide) hd, at1_of_lt _ d hd, b2arr_eq]
    exact shapeCast_apply _ shapeCasts_S2048_S1x2048 _ _ (by
      rw [Shape.rowMajor_val_one, Shape.rowMajor_val_two]
      show d = 0 * 2048 + d
      omega)
  · unfold at2 at1
    rw [dif_neg (fun h' => hd h'.2), dif_neg hd]

end Cert.KernelIdeal.Blocks

end
-- ==== Proof.Accumulation.lean ====
/-
  The running sum across the grid.

  Point `t` of the 16 × 8 grid handles row block `t / 8` and hidden tile `t % 8`. Entry (r, d) of the scratch block
  after point `t` is the sum of the tiles `0 … t % 8` of token row `512·(t/8) + r`:

      scratch after t  =  ∑ hb ≤ t % 8, tile (512·(t/8) + r) d hb ,

  by induction on the point: the first tile of a row block starts from a cleared scratch, every later one adds its
  tile to what the point before left. At the last tile (`t % 8 = 7`) all eight tiles are in, which is the whole
  hidden sum, and the output block is that plus the output bias: the perceptron's row `512·(t/8) + r`.
-/
import proofs.«158210_j22694607192381_1_alg».proof.Proof.BodyPieces
import proofs.«158210_j22694607192381_1_alg».proof.Proof.BodyPayload
import proofs.«158210_j22694607192381_1_alg».proof.Proof.WindowBlocks

noncomputable section

open scoped BigOperators

open Idealize.ShloMosaic Idealize.ShloMosaic.TcCoe Idealize.SL.Sem

namespace Cert.KernelIdeal.Accum

open Cert.KernelIdeal Cert.KernelIdeal.Gen Cert.KernelIdeal.Body Cert.KernelIdeal.Blocks Cert.SqReluMlp
open Idealize.ShloMosaic.ValueIdx Finset

variable (m : (ℓ : Loc nD τ sig) → Buf (Elt Ideal) ℓ)

/-! ## The kernel's five operands as the perceptron's inputs -/

abbrev X (c : Dev nD) : ℕ → ℕ → EReal := at2 (xarr m c)
abbrev W1 (c : Dev nD) : ℕ → ℕ → EReal := at2 (w1arr m c)
abbrev B1 (c : Dev nD) : ℕ → EReal := fun h => at2 (b1arr m c) 0 h
abbrev W2 (c : Dev nD) : ℕ → ℕ → EReal := at2 (w2arr m c)
abbrev B2 (c : Dev nD) : ℕ → EReal := fun d => at2 (b2arr m c) 0 d

/-- The tile of token row `512·(t/8) + r` that point `t` adds. -/
abbrev tileAt (c : Dev nD) (n : ℕ) (r : Fin 512) (d : Fin 2048) (hb : ℕ) : EReal :=
  tile (X m c) (W1 m c) (B1 m c) (W2 m c) (512 * (n / 8) + r.val) d.val hb

/-- The accumulating store at point `t`, on the point's blocks: the running sum plus the point's tile. -/
theorem step_at (c : Dev nD) (t : Fin cfg0.N) (acc : Vec Ideal S512x2048 .f32) (r : Fin 512) (d : Fin 2048) :
    k0_pay2 (F := Ideal) (xblk m c t) (w1blk m c t) (b1blk m c t) (w2blk m c t) acc (ix2 r d)
      = acc (ix2 r d) + tileAt m c t.val r d (t.val % 8) := by
  rw [step_apply]
  congr 1
  unfold tileAt tile term hid
  refine Finset.sum_congr rfl fun j hj => ?_
  have hj' : j < 1024 := Finset.mem_range.mp hj
  have e : ∑ k ∈ range 2048, at2 (xblk m c t) r.val k * at2 (w1blk m c t) j k
      = ∑ k ∈ range 2048, X m c (512 * (t.val / 8) + r.val) k * W1 m c (1024 * (t.val % 8) + j) k :=
    Finset.sum_congr rfl fun k _ => by rw [xblk_at m c t r.val k r.isLt, w1blk_at m c t j k hj']
  rw [e, w2blk_at m c t d.val j hj', b1blk_at m c t j hj']

/-! ## What one point does to the scratch and to the output block -/

/-- First tile of a row block: the scratch holds that tile alone. -/
theorem scratch_of_first (c : Dev nD) (t : Fin cfg0.N) (h0 : t.val % 8 = 0) (h1 : ¬t.val % 8 = 7) (r : Fin 512) (d : Fin 2048) :
    (outsAt0 m c t.val t.isLt).2 (ix2 r d) = tileAt m c t.val r d (t.val % 8) := by
  rw [outsAt0_A m c t h0 h1]
  dsimp only
  refine (congrFun (scratch_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (xblk m c t) (w1blk m c t) (b1blk m c t) (w2blk m c t) (b2blk m c t)) (ix2 r d)).trans ?_
  rw [step_at m c t (k0_pay1 (F := Ideal)) r d, clear_apply, zero_add]

/-- A middle tile: the scratch gains the point's tile. -/
theorem scratch_of_middle (c : Dev nD) (t : Fin cfg0.N) (h0 : ¬t.val % 8 = 0) (h1 : ¬t.val % 8 = 7) (hp : t.val - 1 < cfg0.N)
    (r : Fin 512) (d : Fin 2048) :
    (outsAt0 m c t.val t.isLt).2 (ix2 r d) = (outsAt0 m c (t.val - 1) hp).2 (ix2 r d) + tileAt m c t.val r d (t.val % 8) := by
  rw [outsAt0_B m c t h0 h1]
  dsimp only
  refine (congrFun (scratch_middle (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (xblk m c t) (w1blk m c t) (b1blk m c t) (w2blk m c t) (b2blk m c t) (outsAt0 m c (t.val - 1) hp).2) (ix2 r d)).trans ?_
  exact step_at m c t _ r d

/-- The last tile: the scratch gains the point's tile, -/
theorem scratch_of_last (c : Dev nD) (t : Fin cfg0.N) (h0 : ¬t.val % 8 = 0) (h1 : t.val % 8 = 7) (hp : t.val - 1 < cfg0.N)
    (r : Fin 512) (d : Fin 2048) :
    (outsAt0 m c t.val t.isLt).2 (ix2 r d) = (outsAt0 m c (t.val - 1) hp).2 (ix2 r d) + tileAt m c t.val r d (t.val % 8) := by
  rw [outsAt0_C m c t h0 h1]
  dsimp only
  refine (congrFun (scratch_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (xblk m c t) (w1blk m c t) (b1blk m c t) (w2blk m c t) (b2blk m c t) (outsAt0 m c (t.val - 1) hp).2) (ix2 r d)).trans ?_
  exact step_at m c t _ r d

/-- and the output block is the finished sum plus the output bias. -/
theorem output_of_last (c : Dev nD) (t : Fin cfg0.N) (h0 : ¬t.val % 8 = 0) (h1 : t.val % 8 = 7) (hp : t.val - 1 < cfg0.N)
    (r : Fin 512) (d : Fin 2048) :
    (outsAt0 m c t.val t.isLt).1 (ix2 r d)
      = ((outsAt0 m c (t.val - 1) hp).2 (ix2 r d) + tileAt m c t.val r d (t.val % 8)) + B2 m c d.val := by
  rw [outsAt0_C m c t h0 h1]
  dsimp only
  refine (congrFun (output_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (xblk m c t) (w1blk m c t) (b1blk m c t) (w2blk m c t) (b2blk m c t) (outsAt0 m c (t.val - 1) hp).2) (ix2 r d)).trans ?_
  rw [finish_apply, step_at m c t _ r d, b2blk_at m c t d.val]

/-! ## The invariant -/

/-- After point `n` the scratch holds the tiles `0 … n % 8` of its row block. -/
theorem scratch_after (c : Dev nD) : ∀ (n : ℕ) (h : n < cfg0.N) (r : Fin 512) (d : Fin 2048),
    (outsAt0 m c n h).2 (ix2 r d) = ∑ hb ∈ range (n % 8 + 1), tileAt m c n r d hb := by
  intro n
  induction n with
  | zero =>
    intro h r d
    rw [show (0 : ℕ) % 8 + 1 = 1 from rfl, sum_range_one]
    exact scratch_of_first m c ⟨0, h⟩ rfl (show ¬(0 : ℕ) % 8 = 7 by decide) r d
  | succ n ih =>
    intro h r d
    have hN : n + 1 < 128 := lt_of_lt_of_eq h (show cfg0.N = 128 from N_0)
    have hp : n < cfg0.N := Nat.lt_of_succ_lt h
    by_cases h0 : (n + 1) % 8 = 0
    · have h1 : ¬(n + 1) % 8 = 7 := by omega
      rw [h0, show (0 : ℕ) + 1 = 1 from rfl, sum_range_one]
      have e := scratch_of_first m c ⟨n + 1, h⟩ h0 h1 r d
      rw [show ((⟨n + 1, h⟩ : Fin cfg0.N).val) % 8 = 0 from h0] at e
      exact e
    · have e1 : (n + 1) / 8 = n / 8 := by omega
      have e2 : (n + 1) % 8 = n % 8 + 1 := by omega
      have step : (outsAt0 m c (n + 1) h).2 (ix2 r d) = (outsAt0 m c n hp).2 (ix2 r d) + tileAt m c (n + 1) r d ((n + 1) % 8) := by
        by_cases h1 : (n + 1) % 8 = 7
        · exact scratch_of_last m c ⟨n + 1, h⟩ h0 h1 hp r d
        · exact scratch_of_middle m c ⟨n + 1, h⟩ h0 h1 hp r d
      rw [step, ih hp r d, e2, sum_range_succ _ (n % 8 + 1)]
      unfold tileAt
      rw [e1]

/-- At the last tile of a row block the output block holds the perceptron's rows `512·(t/8) …`. -/
theorem output_at_last (c : Dev nD) (t : Fin cfg0.N) (h1 : t.val % 8 = 7) (r : Fin 512) (d : Fin 2048) :
    (outsAt0 m c t.val t.isLt).1 (ix2 r d)
      = out (X m c) (W1 m c) (B1 m c) (W2 m c) (B2 m c) (512 * (t.val / 8) + r.val) d.val := by
  have hN : t.val < 128 := point_lt t
  have h0 : ¬t.val % 8 = 0 := by omega
  have hp : t.val - 1 < cfg0.N := Nat.lt_of_le_of_lt (Nat.sub_le _ _) t.isLt
  rw [output_of_last m c t h0 h1 hp r d, scratch_after m c (t.val - 1) hp r d]
  unfold out
  rw [← sum_tiles]
  congr 1
  have e1 : (t.val - 1) / 8 = t.val / 8 := by omega
  have e2 : (t.val - 1) % 8 + 1 = 7 := by omega
  rw [e2, h1, show (8 : ℕ) = 7 + 1 from rfl, sum_range_succ _ 7]
  unfold tileAt
  rw [e1]

end Cert.KernelIdeal.Accum

end
-- ==== Proof.ResultArray.lean ====
/-
  The kernel's result array.

  Only the last tile of a row block writes its output block back: point `8·q + 7` writes rows `512·q … 512·q + 511`
  of the [8192, 2048] result, and what it writes is the perceptron's rows there. The sixteen row blocks tile the
  array, so after the run the array holds the perceptron of the kernel's operands, row by row. The host line after
  the kernel reshapes the 8192 rows back to [4, 2048, 2048]: row `2048·b + s` becomes entry (b, s, ·). With the
  operands read back to the arguments, the program's result is `mlp` of its five arguments.
-/
import proofs.«158210_j22694607192381_1_alg».proof.Proof.Accumulation
import Idealize.ShloMosaic.Lib.Pipeline.Value
import Idealize.ShloMosaic.Lib.StableHlo.Run

noncomputable section

open Idealize.ShloMosaic Idealize.ShloMosaic.TcCoe Idealize.SL.Sem
open Idealize.ShloMosaic.Pipeline (Dat)

namespace Cert.KernelIdeal.Result

open Cert.KernelIdeal Cert.KernelIdeal.Gen Cert.KernelIdeal.Blocks Cert.KernelIdeal.Accum Cert.SqReluMlp
open Idealize.ShloMosaic.ValueIdx

variable (m : (ℓ : Loc nD τ sig) → Buf (Elt Ideal) ℓ) (ρ : Dev nD → PrngReg)

/-- The perceptron of the kernel's operands, as the 8192 × 2048 array of its rows. -/
def rowsOut (c : Dev nD) : Buf (Elt Ideal) ((c : Thread nD τ).loc main_v6) :=
  fun (i : S8192x2048.Idx) => out (X m c) (W1 m c) (B1 m c) (W2 m c) (B2 m c) (i 0).val (i 1).val

/-- The output block after a last-tile point, at any entry of the block. -/
theorem output_block (c : Dev nD) (t : Fin cfg0.N) (h7 : t.val % 8 = 7) (y : S512x2048.Idx) :
    (outsAt0 m c t.val t.isLt).1 y
      = out (X m c) (W1 m c) (B1 m c) (W2 m c) (B2 m c) (512 * (t.val / 8) + (y 0).val) (y 1).val := by
  obtain ⟨r, d, rfl⟩ : ∃ (r : Fin 512) (d : Fin 2048), y = ix2 r d := ⟨y 0, y 1, eq_ix2 y⟩
  exact output_at_last m c t h7 r d

/-- What a point that writes back writes: its block of the perceptron's rows. -/
theorem flushed_eq (c : Dev nD) (t : Fin cfg0.N) (hf : (cfg0.win 5).flush t = true) :
    (dats m 0 c).flushed 5 t = ((cfg0.win 5).blk t).view.read (Elt Ideal) (rowsOut m c) := by
  have h7 : t.val % 8 = 7 := (flush0_5 t).mp hf
  have hi := block_index t
  show (cfg0.win 5).cut (grid0.coords t) ((dats m 0 c).after 5 t) = _
  rw [after0_5]
  funext j
  show (outsAt0 m c t.val t.isLt).1 j = rowsOut m c (((cfg0.win 5).blk t).view.emb j)
  rw [output_block m c t h7 j]
  unfold rowsOut
  show out _ _ _ _ _ (512 * (t.val / 8) + (j 0).val) (j 1).val
    = out _ _ _ _ _ (win0_5.index t (0 : Fin 2) * 512 + 1 * (j 0).val) (win0_5.index t (1 : Fin 2) * 2048 + 1 * (j 1).val)
  rw [hi.2.2.2.2.2.2.2.2.2.2.1, hi.2.2.2.2.2.2.2.2.2.2.2]
  congr 1 <;> omega

/-- Every row of the result lies in the block of its row block's last-tile point. -/
theorem cover (i : S8192x2048.Idx) :
    ∃ t : Fin cfg0.N, (cfg0.win 5).flush t = true ∧ i ∈ ((cfg0.win 5).blk t).view.set := by
  have h0 : (i 0).val < 8192 := (i 0).isLt
  have h1 : (i 1).val < 2048 := (i 1).isLt
  have hN : cfg0.N = 128 := N_0
  let t : Fin cfg0.N := ⟨8 * ((i 0).val / 512) + 7, by rw [hN]; omega⟩
  have hi := block_index t
  have ht : t.val = 8 * ((i 0).val / 512) + 7 := rfl
  refine ⟨t, (flush0_5 t).mpr (by rw [ht]; omega), ?_⟩
  show i ∈ ((View.whole main_v6).slice (win0_5.rect t)).set
  rw [View.set_slice_whole, Rect.mem_set_unit]
  intro a
  match a with
  | ⟨0, _⟩ =>
    show win0_5.index t (0 : Fin 2) * 512 ≤ (i 0).val ∧ (i 0).val < win0_5.index t (0 : Fin 2) * 512 + 512
    rw [hi.2.2.2.2.2.2.2.2.2.2.1, ht]; omega
  | ⟨1, _⟩ =>
    show win0_5.index t (1 : Fin 2) * 2048 ≤ (i 1).val ∧ (i 1).val < win0_5.index t (1 : Fin 2) * 2048 + 2048
    rw [hi.2.2.2.2.2.2.2.2.2.2.2]; omega

/-- After the run the result array holds the perceptron's rows. -/
theorem final (c : Dev nD) : (dats m 0 c).arrAt 5 cfg0.N = rowsOut m c :=
  (dats m 0 c).arrAt_eq_of_cover 5 (rowsOut m c) (flushed_eq m c) cover

/-! ## Back to the arguments, and to [4, 2048, 2048] -/

/-- Reshaping 8192 rows to [4, 2048, 2048]: entry (b, s, d) is row `2048·b + s`, column `d`. -/
theorem reshape_entry (G : S8192x2048.Idx → EReal) (b : Fin 4) (s : Fin 2048) (d : Fin 2048) (R : Fin 8192)
    (hR : R.val = 2048 * b.val + s.val) :
    shapeCast S4x2048x2048 G shapeCasts_S8192x2048_S4x2048x2048 (ix3 b s d) = G (ix2 R d) :=
  shapeCast_apply G shapeCasts_S8192x2048_S4x2048x2048 (ix3 b s d) (ix2 R d) (by
    rw [Shape.rowMajor_val_two, Shape.rowMajor_val_three]
    show R.val * 2048 + d.val = (b.val * 2048 + s.val) * 2048 + d.val
    rw [hR]; omega)

/-- The rows reshaped to [4, 2048, 2048] are the perceptron of the five arguments. -/
theorem reshape_rows (c : Dev nD) :
    shapeCast S4x2048x2048 (rowsOut m c) shapeCasts_S8192x2048_S4x2048x2048
      = mlp (m ((c : Thread nD τ).loc main_arg0)) (m ((c : Thread nD τ).loc main_arg1)) (m ((c : Thread nD τ).loc main_arg2))
          (m ((c : Thread nD τ).loc main_arg3)) (m ((c : Thread nD τ).loc main_arg4)) := by
  funext i
  obtain ⟨b, s, d, rfl⟩ : ∃ (b : Fin 4) (s : Fin 2048) (d : Fin 2048), i = ix3 b s d := ⟨i 0, i 1, i 2, eq_ix3 i⟩
  have hb := b.isLt
  have hs := s.isLt
  refine (reshape_entry (rowsOut m c) b s d ⟨2048 * b.val + s.val, by omega⟩ rfl).trans ?_
  have eX : X m c = rows (m ((c : Thread nD τ).loc main_arg0)) := funext fun R => funext fun k => xarr_at m c R k
  have eW1 : W1 m c = at2 (m ((c : Thread nD τ).loc main_arg1)) := w1arr_at m c
  have eB1 : B1 m c = at1 (m ((c : Thread nD τ).loc main_arg2)) := funext fun h => b1arr_at m c h
  have eW2 : W2 m c = at2 (m ((c : Thread nD τ).loc main_arg3)) := w2arr_at m c
  have eB2 : B2 m c = at1 (m ((c : Thread nD τ).loc main_arg4)) := funext fun d => b2arr_at m c d
  unfold rowsOut mlp
  rw [eX, eW1, eB1, eW2, eB2]

/-- What the host line after the kernel leaves in the program's result buffer. -/
theorem tail_eq (c : Dev nD) :
    Pipeline.afterTail₀ cfgs (dats m) 0 (V0 m) [hostOps1] c main_v7
      = mlp (m ((c : Thread nD τ).loc main_arg0)) (m ((c : Thread nD τ).loc main_arg1)) (m ((c : Thread nD τ).loc main_arg2))
          (m ((c : Thread nD τ).loc main_arg3)) (m ((c : Thread nD τ).loc main_arg4)) := by
  refine Eq.trans ?_ (reshape_rows m c)
  unfold Pipeline.afterTail₀
  show StableHlo.after hostOps1 _ (Proc.devRef .tc main_v7) = _
  after_results
  rw [Pipeline.withArrays_arr spec0 launch0.win.arr_inj c _ _ 5, final m c]
  rfl

/-- The run, read: the result buffer at the perceptron of the arguments, the arguments unchanged. -/
theorem run : θ_run defs (onTc (τ := τ) (main (F := Ideal))) ⟨m, fun _ => 0, ρ⟩ fun r => ∀ c : Dev nD,
      r.2.mem ((c.tc : Thread nD τ).loc main_v7)
        = mlp (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v7 (Pipeline.mem_restRefs_of main_v7 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Result

end
-- ==== Proof.lean ====
/-
  A fused two-layer perceptron with a squared-ReLU activation, against its einsum reference.

  For the input `x` of shape [4, 2048, 2048], weights `w1` [8192, 2048], `w2` [2048, 8192] and biases `b1`, `b2`, both
  programs compute, at batch `b`, position `s` and output feature `d`,

      (∑ h < 8192, (max (∑ k < 2048, x[b,s,k] · w1[h,k] + b1[h]) 0)² · w2[d,h]) + b2[d] .

  The reference does it with two whole contractions. The kernel walks a 16 × 8 grid: for each block of 512 token
  rows it visits the 8192 hidden units in 8 tiles of 1024, keeps the running sum of the tiles' contributions in a
  scratch block that it clears at the first tile, and at the last tile adds the output bias and writes the block out;
  the host lines around it only reshape (and change float formats, which is the identity on the extended reals).
  The two agree because addition on the extended reals is commutative and associative, so the eight tile sums added
  in order onto zero are the whole hidden sum (Proof/SqReluMlp.lean, `sum_tiles`); the finiteness of the inputs is
  not used.

  The modules: Proof/SqReluMlp.lean states the formula and the tile law; Proof/ReferenceMlp.lean reads the reference's
  result as the formula; Proof/BodyPieces.lean, Proof/BodyPayload.lean and Proof/WindowBlocks.lean read one run of the
  kernel body as values of the blocks it is given; Proof/Accumulation.lean is the induction over the grid;
  Proof/ResultArray.lean assembles the kernel's result array and its run. No operation was rewritten when the kernel
  was idealized, so the idealized kernel is the kernel's own text read on the extended reals and `preserves` is trivial.
-/
import proofs.«158210_j22694607192381_1_alg».proof.Defs
import proofs.«158210_j22694607192381_1_alg».proof.Proof.Gen.Kernel
import proofs.«158210_j22694607192381_1_alg».proof.Proof.Gen.Kernel.Skeleton
import proofs.«158210_j22694607192381_1_alg».proof.Proof.Gen.Kernel.Launch
import proofs.«158210_j22694607192381_1_alg».proof.Proof.Gen.Kernel.Points
import proofs.«158210_j22694607192381_1_alg».proof.Proof.Gen.Kernel.Frame
import proofs.«158210_j22694607192381_1_alg».proof.Proof.Gen.KernelIdeal
import proofs.«158210_j22694607192381_1_alg».proof.Proof.Gen.KernelIdeal.Skeleton
import proofs.«158210_j22694607192381_1_alg».proof.Proof.Gen.KernelIdeal.Launch
import proofs.«158210_j22694607192381_1_alg».proof.Proof.Gen.KernelIdeal.Points
import proofs.«158210_j22694607192381_1_alg».proof.Proof.Gen.KernelIdeal.Frame
import proofs.«158210_j22694607192381_1_alg».proof.Proof.Gen.ReferenceIdeal
import proofs.«158210_j22694607192381_1_alg».proof.Proof.Gen.ReferenceIdeal.Run
import proofs.«158210_j22694607192381_1_alg».proof.Proof.Gen.ReferenceIdeal.Read
import proofs.«158210_j22694607192381_1_alg».proof.Proof.Gen.Pre_finite_inputs
import proofs.«158210_j22694607192381_1_alg».proof.Proof.ReferenceMlp
import proofs.«158210_j22694607192381_1_alg».proof.Proof.ResultArray
import Idealize.ShloMosaic.Adequacy
import Idealize.ShloMosaic.Init

noncomputable section

namespace Cert.Proof

open Idealize.ShloMosaic Idealize.SL.Sem

/-- The word-level kernel runs and leaves its arguments alone. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten when the kernel was idealized. -/
theorem preserves : Cert.preserves_Kernel_KernelIdeal := trivial

/-- On the extended reals both programs end with the perceptron of arguments that agree. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.Mlp.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
